-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x3 : Shape := ⟨3, ![2, 8192, 3]⟩
abbrev S_ : Shape := ⟨0, ![]⟩

class Facts : Prop where
  bcast_S_S2x8192x3 : S_.BroadcastsInDim S2x8192x3 (![] : Fin 0 → Fin S2x8192x3.rank)
  reducesTo_S2x8192x3_S_d0_1_2 : S2x8192x3.ReducesTo [0, 1, 2] S_
  h_S_ : 0 < S_.numel

variable [Facts]

def fn {F : FTy → Type} [FloatOps F] (main_arg0 : FVec F S2x8192x3 .f32) (main_arg1 : FVec F S2x8192x3 .f32) : IVec S_ 1 :=
  let main_v0 : FVec F S2x8192x3 .f32 := Host.absf main_arg0
  let main_cst : FVec F S_ .f32 := constant S_ .f32 0x7F800000#32
  let main_v1 : FVec F S2x8192x3 .f32 := broadcastInDim S2x8192x3 ![] bcast_S_S2x8192x3 main_cst
  let main_v2 : IVec S2x8192x3 1 := cmpf .olt main_v0 main_v1
  let main_c : IVec S_ 1 := constantI S_ 1 1#1
  let main_v3 : IVec S_ 1 := (fun x v => Host.reduce IntOp.andi x v reducesTo_S2x8192x3_S_d0_1_2 h_S_) main_v2 main_c
  let main_v4 : FVec F S2x8192x3 .f32 := Host.absf main_arg1
  let main_cst_0 : FVec F S_ .f32 := constant S_ .f32 0x7F800000#32
  let main_v5 : FVec F S2x8192x3 .f32 := broadcastInDim S2x8192x3 ![] bcast_S_S2x8192x3 main_cst_0
  let main_v6 : IVec S2x8192x3 1 := cmpf .olt main_v4 main_v5
  let main_c_1 : IVec S_ 1 := constantI S_ 1 1#1
  let main_v7 : IVec S_ 1 := (fun x v => Host.reduce IntOp.andi x v reducesTo_S2x8192x3_S_d0_1_2 h_S_) main_v6 main_c_1
  let main_v8 : IVec S_ 1 := andi main_v3 main_v7
  main_v8
-- ==== Kernel.lean ====
abbrev S2x8192x3 : Shape := ⟨3, ![2, 8192, 3]⟩
abbrev S2x8192 : Shape := ⟨2, ![2, 8192]⟩
abbrev S2x1024x3 : Shape := ⟨3, ![2, 1024, 3]⟩
abbrev S2x1024 : Shape := ⟨2, ![2, 1024]⟩
abbrev S2x1024x1024 : Shape := ⟨3, ![2, 1024, 1024]⟩
abbrev S2x1024x1 : Shape := ⟨3, ![2, 1024, 1]⟩
abbrev S2x1x1024 : Shape := ⟨3, ![2, 1, 1024]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192, .f32⟩
  | .hbm, ⟨3, _⟩ => ⟨S2x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S2x1024x3, .f32⟩
  | .local _ .vmem, ⟨1, _⟩ => ⟨S2x1024x3, .f32⟩
  | .local _ .vmem, ⟨2, _⟩ => ⟨S2x1024x3, .f32⟩
  | .local _ .vmem, ⟨3, _⟩ => ⟨S2x1024x3, .f32⟩
  | .local _ .vmem, ⟨4, _⟩ => ⟨S2x1024, .f32⟩
  | .local _ .vmem, ⟨5, _⟩ => ⟨S2x1024, .f32⟩
  | .local _ .vmem, ⟨6, _⟩ => ⟨S2x1024x3, .f32⟩
  | .local _ .vmem, ⟨7, _⟩ => ⟨S2x1024x3, .f32⟩
  | .local _ .vmem, ⟨8, _⟩ => ⟨S2x1024x3, .f32⟩
  | .local _ .vmem, ⟨9, _⟩ => ⟨S2x1024x3, .f32⟩
  | .local _ .vmem, ⟨10, _⟩ => ⟨S2x1024, .f32⟩
  | .local _ .vmem, ⟨11, _⟩ => ⟨S2x1024, .f32⟩
  | _, _ => ⟨S2x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2x1024_S2x1024_0_0 : ∀ a, (![0, 0] : Fin 2 → Nat) a + S2x1024.size a ≤ S2x1024.size a
  h_S2x1024 : 0 < S2x1024.numel
  inb_S2x1024x3_S2x1024x3_0_0_0 : ∀ a, (![0, 0, 0] : Fin 3 → Nat) a + S2x1024x3.size a ≤ S2x1024x3.size a
  h_S2x1024x3 : 0 < S2x1024x3.numel
  reduces_S2x1024x3_S2x1024 : S2x1024x3.Reduces [2] S2x1024
  shapeCasts_S2x1024_S2x1024x1 : S2x1024.ShapeCasts S2x1024x1
  shapeCasts_S2x1024_S2x1x1024 : S2x1024.ShapeCasts S2x1x1024
  broadcasts_S2x1024x1_S2x1024x1024 : S2x1024x1.Broadcasts S2x1024x1024
  broadcasts_S2x1x1024_S2x1024x1024 : S2x1x1024.Broadcasts S2x1024x1024
  reduces_S2x1024x1024_S2x1024 : S2x1024x1024.Reduces [2] S2x1024
  shapeCasts_S2x1024_S2x1024 : S2x1024.ShapeCasts S2x1024
  reduces_S2x1024x1024_S2x1024_2 : S2x1024x1024.Reduces [1] S2x1024
  reducesTo_S2x8192_S_d0_1 : S2x8192.ReducesTo [0, 1] S_
  h_S_ : 0 < S_.numel
  dot_S2x1024x3_S2x1024x3_S2x1024x1024_2_2_1_1_0_0_wf : DotDims.WF S2x1024x3 S2x1024x3 S2x1024x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x3.size a ≤ S2x8192x3.size a
  hwx0_0 : ∀ i : grid0.Coords, EltTy.bits .f32 = 32 ∨ (Rect.block (s := S2x8192x3) S2x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x3.size a ≤ S2x8192x3.size a
  hwx0_1 : ∀ i : grid0.Coords, EltTy.bits .f32 = 32 ∨ (Rect.block (s := S2x8192x3) S2x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x8192.size a
  hwx0_2 : ∀ i : grid0.Coords, EltTy.bits .f32 = 32 ∨ (Rect.block (s := S2x8192) S2x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x3.size a ≤ S2x8192x3.size a
  hwx1_0 : ∀ i : grid1.Coords, EltTy.bits .f32 = 32 ∨ (Rect.block (s := S2x8192x3) S2x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1024x3.size a ≤ S2x8192x3.size a
  hwx1_1 : ∀ i : grid1.Coords, EltTy.bits .f32 = 32 ∨ (Rect.block (s := S2x8192x3) S2x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x1024.size a ≤ S2x8192.size a
  hwx1_2 : ∀ i : grid1.Coords, EltTy.bits .f32 = 32 ∨ (Rect.block (s := S2x8192) S2x1024.size (cc1_transform_2 i) (hinb1_2 i)).WholeWords (EltTy.packing .f32)

variable [Facts₀]

def dot_S2x1024x3_S2x1024x3_S2x1024x1024_2_2_1_1_0_0 : DotDims S2x1024x3 S2x1024x3 S2x1024x1024 where
  lhsContracting := [2]
  rhsContracting := [2]
  lhsNonContracting := [1]
  rhsNonContracting := [1]
  lhsBatch := [0]
  rhsBatch := [0]
  wf := dot_S2x1024x3_S2x1024x3_S2x1024x1024_2_2_1_1_0_0_wf

abbrev win0_0 : Pipeline.Window sig grid0 :=
  Pipeline.Window.ofSpec (Memref.whole main_arg0) S2x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x8192x3 : Shape := ⟨3, ![2, 8192, 3]⟩
abbrev S_ : Shape := ⟨0, ![]⟩
abbrev S2x8192 : Shape := ⟨2, ![2, 8192]⟩
abbrev S2x8192x8192 : Shape := ⟨3, ![2, 8192, 8192]⟩
abbrev S2x8192x1 : Shape := ⟨3, ![2, 8192, 1]⟩
abbrev S2x1x8192 : Shape := ⟨3, ![2, 1, 8192]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x3, .f32⟩
  | .hbm, ⟨1, _⟩ => ⟨S2x8192x3, .f32⟩
  | .hbm, ⟨2, _⟩ => ⟨S2x8192x3, .f32⟩
  | .hbm, ⟨3, _⟩ => ⟨S_, .f32⟩
  | .hbm, ⟨4, _⟩ => ⟨S2x8192, .f32⟩
  | .hbm, ⟨5, _⟩ => ⟨S2x8192x3, .f32⟩
  | .hbm, ⟨6, _⟩ => ⟨S_, .f32⟩
  | .hbm, ⟨7, _⟩ => ⟨S2x8192, .f32⟩
  | .hbm, ⟨8, _⟩ => ⟨S2x8192x8192, .f32⟩
  | .hbm, ⟨9, _⟩ => ⟨S2x8192x1, .f32⟩
  | .hbm, ⟨10, _⟩ => ⟨S2x1x8192, .f32⟩
  | .hbm, ⟨11, _⟩ => ⟨S2x8192x8192, .f32⟩
  | .hbm, ⟨12, _⟩ => ⟨S2x8192x8192, .f32⟩
  | .hbm, ⟨13, _⟩ => ⟨S2x8192x8192, .f32⟩
  | .hbm, ⟨14, _⟩ => ⟨S_, .f32⟩
  | .hbm, ⟨15, _⟩ => ⟨S2x8192x8192, .f32⟩
  | .hbm, ⟨16, _⟩ => ⟨S2x8192x8192, .f32⟩
  | .hbm, ⟨17, _⟩ => ⟨S2x8192x8192, .f32⟩
  | .hbm, ⟨18, _⟩ => ⟨S_, .f32⟩
  | .hbm, ⟨19, _⟩ => ⟨S2x8192, .f32⟩
  | .hbm, ⟨20, _⟩ => ⟨S_, .f32⟩
  | .hbm, ⟨21, _⟩ => ⟨S2x8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S2x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S2x8192x3_S2x8192_d2 : S2x8192x3.ReducesTo [2] S2x8192
  h_S_ : 0 < S_.numel
  bcast_S2x8192_S2x8192x1_0_1 : S2x8192.BroadcastsInDim S2x8192x1 (![0, 1] : Fin 2 → Fin S2x8192x1.rank)
  bcast_S2x8192_S2x1x8192_0_2 : S2x8192.BroadcastsInDim S2x1x8192 (![0, 2] : Fin 2 → Fin S2x1x8192.rank)
  bcast_S2x8192x1_S2x8192x8192_0_1_2 : S2x8192x1.BroadcastsInDim S2x8192x8192 (![0, 1, 2] : Fin 3 → Fin S2x8192x8192.rank)
  bcast_S2x1x8192_S2x8192x8192_0_1_2 : S2x1x8192.BroadcastsInDim S2x8192x8192 (![0, 1, 2] : Fin 3 → Fin S2x8192x8192.rank)
  bcast_S_S2x8192x8192 : S_.BroadcastsInDim S2x8192x8192 (![] : Fin 0 → Fin S2x8192x8192.rank)
  reducesTo_S2x8192x8192_S2x8192_d2 : S2x8192x8192.ReducesTo [2] S2x8192
  reducesTo_S2x8192x8192_S2x8192_d1 : S2x8192x8192.ReducesTo [1] S2x8192
  reducesTo_S2x8192_S_d0_1 : S2x8192.ReducesTo [0, 1] S_
  dot_S2x8192x3_S2x8192x3_S2x8192x8192_2_2_1_1_0_0_wf : DotDims.WF S2x8192x3 S2x8192x3 S2x8192x8192 [2] [2] [1] [1] [0] [0]

variable [Facts₀]

def dot_S2x8192x3_S2x8192x3_S2x8192x8192_2_2_1_1_0_0 : DotDims S2x8192x3 S2x8192x3 S2x8192x8192 where
  lhsContracting := [2]
  rhsContracting := [2]
  lhsNonContracting := [1]
  rhsNonContracting := [1]
  lhsBatch := [0]
  rhsBatch := [0]
  wf := dot_S2x8192x3_S2x8192x3_S2x8192x8192_2_2_1_1_0_0_wf

class Facts : Prop extends Facts₀ where

variable [Facts]
-- ==== Proof.Spec.lean ====
/-
  Chamfer distance between two point clouds, as mathematics over the extended reals.

  A cloud holds, for each of two batch entries, `n` points of ℝ³. For a point `i` of the first cloud and a point `j`
  of the second, the squared distance is taken in its expanded form
      pd(b, i, j) = (|xᵢ|² + |yⱼ|²) − 2 · ⟨xᵢ, yⱼ⟩,
  the squared norms and the inner product being sums over the three coordinates. The distance from a point of one
  cloud to the other cloud is the infimum of `pd` over the other cloud's points: `dist1` for the points of the first
  cloud, `dist2` for the points of the second. Nothing here is finite arithmetic: the sums and the difference are the
  extended reals' own, and an infimum over a finite family is a minimum. The factor `2` is kept as the word both
  programs print, so it is never evaluated.
-/
import Idealize.ShloMosaic.PureOps.Ideal.Laws
import Idealize.ShloMosaic.Lib.ValueIdx

noncomputable section

namespace Cert.Chamfer

open Idealize.ShloMosaic Idealize.ShloMosaic.ValueIdx

/-- Two batch entries of `n` points with three coordinates each. -/
abbrev Cloud (n : ℕ) : Shape := ⟨3, ![2, n, 3]⟩
/-- One value per batch entry and point. -/
abbrev PerPoint (n : ℕ) : Shape := ⟨2, ![2, n]⟩

/-- The factor of the cross term, as the word both programs carry. -/
abbrev two : EReal := Ideal.ofBits .f32 0x40000000#32

/-- The squared norm of point `i` of batch entry `b`. -/
def sqn {n : ℕ} (x : (Cloud n).Idx → EReal) (b : Fin 2) (i : Fin n) : EReal :=
  ∑ k : Fin 3, x (ix3 b i k) * x (ix3 b i k)

/-- The inner product of point `i` of the first cloud with point `j` of the second. -/
def cross {n m : ℕ} (x : (Cloud n).Idx → EReal) (y : (Cloud m).Idx → EReal) (b : Fin 2) (i : Fin n) (j : Fin m) : EReal :=
  ∑ k : Fin 3, x (ix3 b i k) * y (ix3 b j k)

/-- The squared distance of the two points, expanded. -/
def pd {n m : ℕ} (x : (Cloud n).Idx → EReal) (y : (Cloud m).Idx → EReal) (b : Fin 2) (i : Fin n) (j : Fin m) : EReal :=
  (sqn x b i + sqn y b j) - two * cross x y b i j

/-- From each point of the first cloud to the second cloud. -/
def dist1 {n m : ℕ} (x : (Cloud n).Idx → EReal) (y : (Cloud m).Idx → EReal) : (PerPoint n).Idx → EReal :=
  fun p => ⨅ j : Fin m, pd x y (p 0) (p 1) j

/-- From each point of the second cloud to the first cloud. -/
def dist2 {n m : ℕ} (x : (Cloud n).Idx → EReal) (y : (Cloud m).Idx → EReal) : (PerPoint m).Idx → EReal :=
  fun p => ⨅ i : Fin n, pd x y (p 0) i (p 1)

theorem dist1_ix2 {n m : ℕ} (x : (Cloud n).Idx → EReal) (y : (Cloud m).Idx → EReal) (b : Fin 2) (i : Fin n) :
    dist1 x y (ix2 b i) = ⨅ j : Fin m, pd x y b i j := rfl

theorem dist2_ix2 {n m : ℕ} (x : (Cloud n).Idx → EReal) (y : (Cloud m).Idx → EReal) (b : Fin 2) (j : Fin m) :
    dist2 x y (ix2 b j) = ⨅ i : Fin n, pd x y b i j := rfl

/-- `pd` sees a cloud only through the coordinates of the two points: clouds that agree there give one value. -/
theorem pd_congr {n m n' m' : ℕ} (x : (Cloud n).Idx → EReal) (y : (Cloud m).Idx → EReal)
    (x' : (Cloud n').Idx → EReal) (y' : (Cloud m').Idx → EReal) (b : Fin 2) (i : Fin n) (j : Fin m) (i' : Fin n') (j' : Fin m')
    (hx : ∀ k : Fin 3, x (ix3 b i k) = x' (ix3 b i' k)) (hy : ∀ k : Fin 3, y (ix3 b j k) = y' (ix3 b j' k)) :
    pd x y b i j = pd x' y' b i' j' := by
  unfold pd sqn cross
  simp only [hx, hy]

/-- The word of `+∞` is the top of the extended reals. -/
theorem inf_word : Ideal.ofBits .f32 0x7F800000#32 = (⊤ : EReal) := by simp [Ideal.ofBits, Ideal.ieee]

/-- A fold of `min` from the top over a whole finite family is the family's infimum. -/
theorem fold_min_top {ι : Type} [Fintype ι] (f : ι → EReal) :
    (Finset.univ : Finset ι).fold min ⊤ f = ⨅ k, f k := by
  refine eq_of_forall_le_iff fun c => ?_
  rw [Finset.le_fold_min, le_iInf_iff]
  exact ⟨fun h k => h.2 k (Finset.mem_univ k), fun h => ⟨le_top, fun k _ => h k⟩⟩

/-- What a minimum reduction of either program is: `min` from the word of `+∞` over a whole finite family, its infimum. -/
theorem fold_minimumf_inf {ι : Type} [Fintype ι] (f : ι → EReal) :
    (Finset.univ : Finset ι).fold (FloatOps.minimumf (F := Ideal) (φ := .f32)) (FloatOps.ofBits (F := Ideal) .f32 0x7F800000#32) f
      = ⨅ k, f k := by
  show (Finset.univ : Finset ι).fold min (Ideal.ofBits .f32 0x7F800000#32) f = _
  rw [inf_word]
  exact fold_min_top f

end Cert.Chamfer

end
-- ==== Proof.TileMin.lean ====
/-
  One grid point of either kernel, read at an index.

  At a grid point the body holds a block of 1024 points of each cloud (`v3` of the first, `v4` of the second) and the
  output block's carried contents `v19`. It forms every pairwise squared distance of the two blocks — the squared norms
  as row sums of squares, one spread down the columns and one across the rows, minus twice the batched product of
  the blocks, whose entry is the inner product of the two points — and folds the minimum of that table into the
  carried contents: along the second block's points in the first kernel, along the first block's points in the
  second. So an entry of what it stores is the smaller of the carried entry and the infimum of `pd` over the other
  block's points. A minimum from the top of the order over a finite family is the family's infimum, and that is all
  that is used of the order.
-/
import proofs.«121679_j4733053960750_1_alg».proof.Proof.Gen.KernelIdeal.Skeleton
import proofs.«121679_j4733053960750_1_alg».proof.Proof.Spec
import Idealize.ShloMosaic.Lib.Pipeline.Value
import Idealize.ShloMosaic.Lib.ValueIdx
import Idealize.ShloMosaic.PureOps.Ideal.Laws

noncomputable section

namespace Cert.Chamfer.Tile

open Cert.KernelIdeal Cert.KernelIdeal.Gen Idealize.ShloMosaic Idealize.ShloMosaic.ValueIdx Cert.Chamfer

/-! ## The reductions -/

/-- A minimum along the last axis of the distance table, from `+∞`: the infimum over that axis. -/
theorem min_last (src : FVec Ideal S2x1024x1024 .f32) (h : S2x1024x1024.Reduces [2] S2x1024) (hφ : FKind.Formats .f32)
    (hacc : (0x7F800000#32 : BitVec 32) = FKind.minimumf.neutral .f32 hφ) (b : Fin 2) (r : Fin 1024) :
    multiReduction .minimumf [2] S2x1024 src 0x7F800000#32 h hφ hacc (ix2 b r) = ⨅ q : Fin 1024, src (ix3 b r q) := by
  rw [multiReduction_minimumf_eq_fold, h.fold_filter_drop_single]
  refine (fold_minimumf_inf _).trans ?_
  exact iInf_congr fun q => congrArg src (funext fun a => Fin.ext (by
    match a with | ⟨0, _⟩ => rfl | ⟨1, _⟩ => rfl | ⟨2, _⟩ => rfl))

/-- A minimum along the middle axis of the distance table, from `+∞`: the infimum over that axis. -/
theorem min_mid (src : FVec Ideal S2x1024x1024 .f32) (h : S2x1024x1024.Reduces [1] S2x1024) (hφ : FKind.Formats .f32)
    (hacc : (0x7F800000#32 : BitVec 32) = FKind.minimumf.neutral .f32 hφ) (b : Fin 2) (q : Fin 1024) :
    multiReduction .minimumf [1] S2x1024 src 0x7F800000#32 h hφ hacc (ix2 b q) = ⨅ r : Fin 1024, src (ix3 b r q) := by
  rw [multiReduction_minimumf_eq_fold, h.fold_filter_drop_single]
  refine (fold_minimumf_inf _).trans ?_
  exact iInf_congr fun r => congrArg src (funext fun a => Fin.ext (by
    match a with | ⟨0, _⟩ => rfl | ⟨1, _⟩ => rfl | ⟨2, _⟩ => rfl))

/-- The row sum of a block's squares is the squared norm of the row's point. -/
theorem sumsq (v : FVec Ideal S2x1024x3 .f32) (h : S2x1024x3.Reduces [2] S2x1024) (hφ : FKind.Formats .f32)
    (hacc : (0x00000000#32 : BitVec 32) = FKind.add.neutral .f32 hφ) (b : Fin 2) (r : Fin 1024) :
    multiReduction .add [2] S2x1024 (mulf v v) 0x00000000#32 h hφ hacc (ix2 b r) = sqn v b r := by
  refine (Ideal.multiReduction_add_single (mulf v v) 0x00000000#32 h hφ hacc (ix2 b r)).trans ?_
  unfold sqn
  refine Finset.sum_congr rfl fun k _ => ?_
  have e : h.lift (ix2 b r) k = ix3 b r k := funext fun a => Fin.ext (by
    match a with | ⟨0, _⟩ => rfl | ⟨1, _⟩ => rfl | ⟨2, _⟩ => rfl)
  rw [e]
  rfl

/-! ## The two spreads of a per-point value over the table -/

/-- A per-point value of the first block, spread along the second block's points. -/
theorem spread_cols (u : FVec Ideal S2x1024 .f32) (h1 : S2x1024.ShapeCasts S2x1024x1) (h2 : S2x1024x1.Broadcasts S2x1024x1024)
    (b : Fin 2) (r q : Fin 1024) :
    broadcastTo S2x1024x1024 (shapeCast S2x1024x1 u h1) h2 (ix3 b r q) = u (ix2 b r) := by
  refine (broadcastTo_apply (shapeCast S2x1024x1 u h1) h2 (ix3 b r q) (ix3 b r (0 : Fin 1)) (fun a => ?_)).trans ?_
  · match a with
    | ⟨0, _⟩ => show b.val = if (2 : Nat) = 1 then 0 else b.val; rw [if_neg (by decide)]
    | ⟨1, _⟩ => show r.val = if (1024 : Nat) = 1 then 0 else r.val; rw [if_neg (by decide)]
    | ⟨2, _⟩ => show 0 = if (1 : Nat) = 1 then 0 else q.val; rw [if_pos rfl]
  · refine shapeCast_apply u h1 (ix3 b r (0 : Fin 1)) (ix2 b r) ?_
    rw [Shape.rowMajor_val_two, Shape.rowMajor_val_three]
    show b.val * 1024 + r.val = (b.val * 1024 + r.val) * 1 + 0
    omega

/-- A per-point value of the second block, spread along the first block's points. -/
theorem spread_rows (u : FVec Ideal S2x1024 .f32) (h1 : S2x1024.ShapeCasts S2x1x1024) (h2 : S2x1x1024.Broadcasts S2x1024x1024)
    (b : Fin 2) (r q : Fin 1024) :
    broadcastTo S2x1024x1024 (shapeCast S2x1x1024 u h1) h2 (ix3 b r q) = u (ix2 b q) := by
  refine (broadcastTo_apply (shapeCast S2x1x1024 u h1) h2 (ix3 b r q) (ix3 b (0 : Fin 1) q) (fun a => ?_)).trans ?_
  · match a with
    | ⟨0, _⟩ => show b.val = if (2 : Nat) = 1 then 0 else b.val; rw [if_neg (by decide)]
    | ⟨1, _⟩ => show 0 = if (1 : Nat) = 1 then 0 else r.val; rw [if_pos rfl]
    | ⟨2, _⟩ => show q.val = if (1024 : Nat) = 1 then 0 else q.val; rw [if_neg (by decide)]
  · refine shapeCast_apply u h1 (ix3 b (0 : Fin 1) q) (ix2 b q) ?_
    rw [Shape.rowMajor_val_two, Shape.rowMajor_val_three]
    show b.val * 1024 + q.val = (b.val * 1 + 0) * 1024 + q.val
    omega

/-! ## The batched product of the two blocks: the inner products -/

theorem lhs_0 (i : S2x1024x1024.Idx) (q : dot_S2x1024x3_S2x1024x3_S2x1024x1024_2_2_1_1_0_0.contr.Idx) :
    (dot_S2x1024x3_S2x1024x3_S2x1024x1024_2_2_1_1_0_0.lhsIdx i q 0).val = (i 0).val := by
  unfold DotDims.lhsIdx
  rw [dif_pos (show (0 : Fin S2x1024x3.rank) ∈ dot_S2x1024x3_S2x1024x3_S2x1024x1024_2_2_1_1_0_0.lhsBatch by decide)]
  rfl
theorem lhs_1 (i : S2x1024x1024.Idx) (q : dot_S2x1024x3_S2x1024x3_S2x1024x1024_2_2_1_1_0_0.contr.Idx) :
    (dot_S2x1024x3_S2x1024x3_S2x1024x1024_2_2_1_1_0_0.lhsIdx i q 1).val = (i 1).val := by
  unfold DotDims.lhsIdx
  rw [dif_neg (show ¬(1 : Fin S2x1024x3.rank) ∈ dot_S2x1024x3_S2x1024x3_S2x1024x1024_2_2_1_1_0_0.lhsBatch by decide), dif_pos (show (1 : Fin S2x1024x3.rank) ∈ dot_S2x1024x3_S2x1024x3_S2x1024x1024_2_2_1_1_0_0.lhsNonContracting by decide)]
  rfl
theorem lhs_2 (i : S2x1024x1024.Idx) (q : dot_S2x1024x3_S2x1024x3_S2x1024x1024_2_2_1_1_0_0.contr.Idx) :
    (dot_S2x1024x3_S2x1024x3_S2x1024x1024_2_2_1_1_0_0.lhsIdx i q 2).val = (q ⟨0, by decide⟩).val :=
  dot_S2x1024x3_S2x1024x3_S2x1024x1024_2_2_1_1_0_0.lhsIdx_val_of_single rfl i q
theorem rhs_0 (i : S2x1024x1024.Idx) (q : dot_S2x1024x3_S2x1024x3_S2x1024x1024_2_2_1_1_0_0.contr.Idx) :
    (dot_S2x1024x3_S2x1024x3_S2x1024x1024_2_2_1_1_0_0.rhsIdx i q 0).val = (i 0).val := by
  unfold DotDims.rhsIdx
  rw [dif_pos (show (0 : Fin S2x1024x3.rank) ∈ dot_S2x1024x3_S2x1024x3_S2x1024x1024_2_2_1_1_0_0.rhsBatch by decide)]
  rfl
theorem rhs_1 (i : S2x1024x1024.Idx) (q : dot_S2x1024x3_S2x1024x3_S2x1024x1024_2_2_1_1_0_0.contr.Idx) :
    (dot_S2x1024x3_S2x1024x3_S2x1024x1024_2_2_1_1_0_0.rhsIdx i q 1).val = (i 2).val := by
  unfold DotDims.rhsIdx
  rw [dif_neg (show ¬(1 : Fin S2x1024x3.rank) ∈ dot_S2x1024x3_S2x1024x3_S2x1024x1024_2_2_1_1_0_0.rhsBatch by decide), dif_pos (show (1 : Fin S2x1024x3.rank) ∈ dot_S2x1024x3_S2x1024x3_S2x1024x1024_2_2_1_1_0_0.rhsNonContracting by decide)]
  rfl
theorem rhs_2 (i : S2x1024x1024.Idx) (q : dot_S2x1024x3_S2x1024x3_S2x1024x1024_2_2_1_1_0_0.contr.Idx) :
    (dot_S2x1024x3_S2x1024x3_S2x1024x1024_2_2_1_1_0_0.rhsIdx i q 2).val = (q ⟨0, by decide⟩).val :=
  dot_S2x1024x3_S2x1024x3_S2x1024x1024_2_2_1_1_0_0.rhsIdx_val_of_single rfl i q

/-- The product's entry at (b, r, q) is the inner product of point `r` of the first block with point `q` of the second. -/
theorem matmul_cross (v3 v4 : FVec Ideal S2x1024x3 .f32) (b : Fin 2) (r q : Fin 1024) :
    matmul dot_S2x1024x3_S2x1024x3_S2x1024x1024_2_2_1_1_0_0 none v3 v4 (constant S2x1024x1024 .f32 0x00000000#32) (ix3 b r q) = cross v3 v4 b r q := by
  simp only [matmul]
  rw [Ideal.matmul_constant_zero_apply, ← Equiv.sum_comp (ValueIdx.contrEquiv1 dot_S2x1024x3_S2x1024x3_S2x1024x1024_2_2_1_1_0_0 3 rfl rfl).symm]
  unfold cross
  refine Finset.sum_congr rfl fun k _ => ?_
  have hk := ValueIdx.contrEquiv1_symm_val dot_S2x1024x3_S2x1024x3_S2x1024x1024_2_2_1_1_0_0 3 rfl rfl k
  have el : dot_S2x1024x3_S2x1024x3_S2x1024x1024_2_2_1_1_0_0.lhsIdx (ix3 b r q) ((ValueIdx.contrEquiv1 dot_S2x1024x3_S2x1024x3_S2x1024x1024_2_2_1_1_0_0 3 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S2x1024x3_S2x1024x3_S2x1024x1024_2_2_1_1_0_0.rhsIdx (ix3 b r q) ((ValueIdx.contrEquiv1 dot_S2x1024x3_S2x1024x3_S2x1024x1024_2_2_1_1_0_0 3 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-! ## The distance table, and what each kernel stores -/

/-- The table both kernels build from their two blocks, read at (b, r, q): the expanded squared distance of the two points. -/
theorem table_apply (v3 v4 : FVec Ideal S2x1024x3 .f32) (hr : S2x1024x3.Reduces [2] S2x1024) (hφ : FKind.Formats .f32)
    (hacc : (0x00000000#32 : BitVec 32) = FKind.add.neutral .f32 hφ)
    (hc1 : S2x1024.ShapeCasts S2x1024x1) (hc2 : S2x1024.ShapeCasts S2x1x1024)
    (hb1 : S2x1024x1.Broadcasts S2x1024x1024) (hb2 : S2x1x1024.Broadcasts S2x1024x1024) (b : Fin 2) (r q : Fin 1024) :
    subf (addf (broadcastTo S2x1024x1024 (shapeCast S2x1024x1 (multiReduction .add [2] S2x1024 (mulf v3 v3) 0x00000000#32 hr hφ hacc) hc1) hb1)
               (broadcastTo S2x1024x1024 (shapeCast S2x1x1024 (multiReduction .add [2] S2x1024 (mulf v4 v4) 0x00000000#32 hr hφ hacc) hc2) hb2))
         (mulf (broadcast S2x1024x1024 (Scalar.ofBits (F := Ideal) .f32 0x40000000#32))
               (matmul dot_S2x1024x3_S2x1024x3_S2x1024x1024_2_2_1_1_0_0 none v3 v4 (constant S2x1024x1024 .f32 0x00000000#32))) (ix3 b r q)
      = pd v3 v4 b r q := by
  refine (subf_apply _ _ _).trans ?_
  unfold pd
  refine congrArg₂ (· - ·) ?_ ?_
  · refine (addf_apply _ _ _).trans (congrArg₂ (· + ·) ?_ ?_)
    · exact (spread_cols _ hc1 hb1 b r q).trans (sumsq v3 hr hφ hacc b r)
    · exact (spread_rows _ hc2 hb2 b r q).trans (sumsq v4 hr hφ hacc b q)
  · refine (mulf_apply _ _ _).trans (congrArg₂ (· * ·) rfl ?_)
    exact matmul_cross v3 v4 b r q

/-- The first kernel's store at (b, r): the carried entry against the nearest point of the second block. -/
theorem pay2_first (v3 v4 : FVec Ideal S2x1024x3 .f32) (v19 : FVec Ideal S2x1024 .f32) (b : Fin 2) (r : Fin 1024) :
    k0_pay2 (F := Ideal) v3 v4 v19 (ix2 b r) = min (v19 (ix2 b r)) (⨅ q : Fin 1024, pd v3 v4 b r q) := by
  unfold k0_pay2
  refine (minimumf_apply _ _ _).trans (congrArg₂ min (congrFun (shapeCast_self v19 _) _) ?_)
  refine (min_last _ _ _ _ b r).trans (iInf_congr fun q => ?_)
  exact table_apply v3 v4 _ _ _ _ _ _ _ b r q

/-- The second kernel's store at (b, q): the carried entry against the nearest point of the first block. -/
theorem pay2_second (v3 v4 : FVec Ideal S2x1024x3 .f32) (v19 : FVec Ideal S2x1024 .f32) (b : Fin 2) (q : Fin 1024) :
    k1_pay2 (F := Ideal) v3 v4 v19 (ix2 b q) = min (v19 (ix2 b q)) (⨅ r : Fin 1024, pd v3 v4 b r q) := by
  unfold k1_pay2
  refine (minimumf_apply _ _ _).trans (congrArg₂ min (congrFun (shapeCast_self v19 _) _) ?_)
  refine (min_mid _ _ _ _ b q).trans (iInf_congr fun r => ?_)
  exact table_apply v3 v4 _ _ _ _ _ _ _ b r q

/-- The reset both kernels store at the first step along the reduction axis: `+∞` everywhere. -/
theorem pay1_first (i : S2x1024.Idx) : k0_pay1 (F := Ideal) i = (⊤ : EReal) := inf_word
theorem pay1_second (i : S2x1024.Idx) : k1_pay1 (F := Ideal) i = (⊤ : EReal) := inf_word

end Cert.Chamfer.Tile

end
-- ==== Proof.Region0.lean ====
/-
  The first kernel: the distance from each point of the first cloud to the second cloud.

  The grid runs over pairs (block of 1024 points of the first cloud, block of 1024 points of the second), the second
  index moving fastest: point `t` of the grid holds block `t / 8` of the first cloud and block `t % 8` of the
  second. The output block belongs to the first cloud's block and is carried across the eight inner steps. At the
  first of them it is reset to `+∞`. At every step each of its entries becomes the smaller of what it held and the
  nearest squared distance to the second cloud's current block. It is written back after the last. So after inner
  step `s` the entry of point `i` is the infimum of `pd` over the first `1024 · (s + 1)` points of the second cloud:
  a lower bound of the entry is a lower bound of all those distances and conversely, and that is how the statement
  is carried through the induction over the grid points. After the last step the range is the whole second cloud,
  and the eight write-backs tile the result array.
-/
import proofs.«121679_j4733053960750_1_alg».proof.Proof.Gen.KernelIdeal.Frame
import proofs.«121679_j4733053960750_1_alg».proof.Proof.TileMin
import proofs.«121679_j4733053960750_1_alg».proof.Proof.Spec
import Idealize.ShloMosaic.Lib.Pipeline.Value
import Idealize.ShloMosaic.Lib.Tactic

noncomputable section

namespace Cert.Chamfer.First

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one step leaves in the output block -/

section Pieces
variable {F : FTy → Type} [FloatOps F]

/-- A later inner step: the block held `xo`, and the one covering store replaces it by the fold of the two input
    blocks into `xo`. -/
theorem stored_later (c : Dev nD) (i : grid0.Coords) (a2 : Memref sig .tc .vmem S2x1024x3 .f32) (h2 : a2.IsWhole)
    (a3 : Memref sig .tc .vmem S2x1024x3 .f32) (h3 : a3.IsWhole) (a4 : Memref sig .tc .vmem S2x1024 .f32) (h4 : a4.IsWhole)
    (hc : ¬cond0_0 i) (x0 x1 : Vec F S2x1024x3 .f32) (xo : Vec F S2x1024 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz2]
  simp only [View.readAt_eq_ld, h2.read_unread, h3.read_unread, h4.read_unread, View.ld_unit_zero (S := S2x1024x3) hz3,
    View.ld_unit_zero (S := S2x1024) hz2]

/-- The first inner step: the block is reset to `+∞`, read back, and the fold of the two input blocks into the reset
    is stored over it. -/
theorem stored_first (c : Dev nD) (i : grid0.Coords) (a2 : Memref sig .tc .vmem S2x1024x3 .f32) (h2 : a2.IsWhole)
    (a3 : Memref sig .tc .vmem S2x1024x3 .f32) (h3 : a3.IsWhole) (a4 : Memref sig .tc .vmem S2x1024 .f32) (h4 : a4.IsWhole)
    (hc : cond0_0 i) (x0 x1 : Vec F S2x1024x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S2x1024) hz2]
  simp only [View.readAt_eq_ld, h2.read_unread, h3.read_unread, View.ld_unit_zero (S := S2x1024x3) hz3,
    View.readCov_unit_zero (S := S2x1024) _ hz2]

end Pieces

/-! ## The blocks of the two clouds at a grid point -/

variable (V : (c : Dev nD) → (b : Ref sig .tc) → Buf (Elt Ideal) ((c : Thread nD τ).loc b))

/-- The two clouds as the region finds them, and their blocks at grid point `t`. -/
abbrev cloud1 (c : Dev nD) : FVec Ideal S2x8192x3 .f32 := V c main_arg0
abbrev cloud2 (c : Dev nD) : FVec Ideal S2x8192x3 .f32 := V c main_arg1
abbrev blk1 (c : Dev nD) (t : Fin cfg0.N) : FVec Ideal S2x1024x3 .f32 := iblk0 V c 0 t
abbrev blk2 (c : Dev nD) (t : Fin cfg0.N) : FVec Ideal S2x1024x3 .f32 := iblk0 V c 1 t

/-- Which blocks grid point `t` holds: block `t / 8` of the first cloud and of the output, block `t % 8` of the second. -/
theorem idx_facts : ∀ t : Fin cfg0.N,
    win0_0.index t (0 : Fin 3) = 0 ∧ win0_0.index t (1 : Fin 3) = t.val / 8 ∧ win0_0.index t (2 : Fin 3) = 0
    ∧ win0_1.index t (0 : Fin 3) = 0 ∧ win0_1.index t (1 : Fin 3) = t.val % 8 ∧ win0_1.index t (2 : Fin 3) = 0
    ∧ win0_2.index t (0 : Fin 2) = 0 ∧ win0_2.index t (1 : Fin 2) = t.val / 8 :=
  (by decide +kernel : ∀ t : Fin grid0.N, _)

/-- Row `r` of the first cloud's block at `t` is point `1024 · (t / 8) + r` of the cloud. -/
theorem blk1_apply (c : Dev nD) (t : Fin cfg0.N) (b : Fin 2) (r : Fin 1024) (k : Fin 3) (i : Fin 8192)
    (hi : i.val = 1024 * (t.val / 8) + r.val) : blk1 V c t (ix3 b r k) = cloud1 V c (ix3 b i k) := by
  show iblk0 V c 0 t (ix3 b r k) = V c main_arg0 (ix3 b i k)
  unfold iblk0
  rw [View.read_apply]
  show V c main_arg0 _ = V c main_arg0 _
  congr 1
  funext a
  apply Fin.ext
  obtain ⟨e0, e1, e2, -⟩ := idx_facts t
  match a with
  | ⟨0, _⟩ => show win0_0.index t (0 : Fin 3) * 2 + 1 * b.val = b.val; omega
  | ⟨1, _⟩ => show win0_0.index t (1 : Fin 3) * 1024 + 1 * r.val = i.val; omega
  | ⟨2, _⟩ => show win0_0.index t (2 : Fin 3) * 3 + 1 * k.val = k.val; omega

/-- Row `q` of the second cloud's block at `t` is point `1024 · (t % 8) + q` of the cloud. -/
theorem blk2_apply (c : Dev nD) (t : Fin cfg0.N) (b : Fin 2) (q : Fin 1024) (k : Fin 3) (j : Fin 8192)
    (hj : j.val = 1024 * (t.val % 8) + q.val) : blk2 V c t (ix3 b q k) = cloud2 V c (ix3 b j k) := by
  show iblk0 V c 1 t (ix3 b q k) = V c main_arg1 (ix3 b j k)
  unfold iblk0
  rw [View.read_apply]
  show V c main_arg1 _ = V c main_arg1 _
  congr 1
  funext a
  apply Fin.ext
  obtain ⟨-, -, -, e0, e1, e2, -⟩ := idx_facts t
  match a with
  | ⟨0, _⟩ => show win0_1.index t (0 : Fin 3) * 2 + 1 * b.val = b.val; omega
  | ⟨1, _⟩ => show win0_1.index t (1 : Fin 3) * 1024 + 1 * q.val = j.val; omega
  | ⟨2, _⟩ => show win0_1.index t (2 : Fin 3) * 3 + 1 * k.val = k.val; omega

/-! ## One step, and the carried block after every step -/

/-- A lower bound of every distance inside the grid point's pair of blocks is a lower bound of `pd` over the
    corresponding ranges of the two clouds, and conversely. -/
theorem tile_le_iff (c : Dev nD) (t : Fin cfg0.N) (b : Fin 2) (r : Fin 1024) (e : EReal) :
    (∀ q : Fin 1024, e ≤ pd (blk1 V c t) (blk2 V c t) b r q) ↔
      ∀ i j : Fin 8192, i.val = 1024 * (t.val / 8) + r.val → 1024 * (t.val % 8) ≤ j.val → j.val < 1024 * (t.val % 8 + 1) →
        e ≤ pd (cloud1 V c) (cloud2 V c) b i j := by
  have hN : t.val < 64 := lt_of_lt_of_eq t.isLt (show cfg0.N = 64 from N_0)
  constructor
  · intro h i j hi hj1 hj2
    have hq : j.val - 1024 * (t.val % 8) < 1024 := by omega
    have := h ⟨j.val - 1024 * (t.val % 8), hq⟩
    rwa [pd_congr (blk1 V c t) (blk2 V c t) (cloud1 V c) (cloud2 V c) b r ⟨j.val - 1024 * (t.val % 8), hq⟩ i j
      (fun k => blk1_apply V c t b r k i hi)
      (fun k => blk2_apply V c t b ⟨j.val - 1024 * (t.val % 8), hq⟩ k j (by show j.val = 1024 * (t.val % 8) + (j.val - 1024 * (t.val % 8)); omega))] at this
  · intro h q
    have hi : 1024 * (t.val / 8) + r.val < 8192 := by have := r.isLt; omega
    have hj : 1024 * (t.val % 8) + q.val < 8192 := by have := q.isLt; omega
    rw [pd_congr (blk1 V c t) (blk2 V c t) (cloud1 V c) (cloud2 V c) b r q ⟨1024 * (t.val / 8) + r.val, hi⟩ ⟨1024 * (t.val % 8) + q.val, hj⟩
      (fun k => blk1_apply V c t b r k _ rfl) (fun k => blk2_apply V c t b q k _ rfl)]
    exact h _ _ rfl (by show 1024 * (t.val % 8) ≤ 1024 * (t.val % 8) + q.val; omega)
      (by show 1024 * (t.val % 8) + q.val < 1024 * (t.val % 8 + 1); have := q.isLt; omega)

/-- THE CARRIED BLOCK. After grid point `n` the entry of row `r` is bounded below by exactly the lower bounds of the
    distances from point `1024 · (n / 8) + r` of the first cloud to the first `1024 · (n % 8 + 1)` points of the second. -/
theorem carried_le_iff (c : Dev nD) : ∀ (n : ℕ) (hn : n < cfg0.N) (b : Fin 2) (r : Fin 1024) (e : EReal),
    e ≤ outsAt0 V c n hn (ix2 b r) ↔
      ∀ i j : Fin 8192, i.val = 1024 * (n / 8) + r.val → j.val < 1024 * (n % 8 + 1) → e ≤ pd (cloud1 V c) (cloud2 V c) b i j := by
  intro n
  induction n with
  | zero =>
    intro hn b r e
    rw [outsAt0_A V c ⟨0, hn⟩ rfl, stored_first]
    show e ≤ k0_pay2 (F := Ideal) (blk1 V c ⟨0, hn⟩) (blk2 V c ⟨0, hn⟩) (k0_pay1 (F := Ideal)) (ix2 b r) ↔ _
    rw [Tile.pay2_first, le_min_iff, Tile.pay1_first, le_iInf_iff, tile_le_iff]
    constructor
    · intro h i j hi hj; exact h.2 i j hi (by show 1024 * (0 % 8) ≤ j.val; omega) hj
    · intro h; exact ⟨le_top, fun i j hi _ hj => h i j hi hj⟩
  | succ n ih =>
    intro hn b r e
    have hN : cfg0.N = 64 := N_0
    by_cases h0 : (n + 1) % 8 = 0
    · rw [outsAt0_A V c ⟨n + 1, hn⟩ h0, stored_first]
      show e ≤ k0_pay2 (F := Ideal) (blk1 V c ⟨n + 1, hn⟩) (blk2 V c ⟨n + 1, hn⟩) (k0_pay1 (F := Ideal)) (ix2 b r) ↔ _
      rw [Tile.pay2_first, le_min_iff, Tile.pay1_first, le_iInf_iff, tile_le_iff]
      constructor
      · intro h i j hi hj; exact h.2 i j hi (by show 1024 * ((n + 1) % 8) ≤ j.val; omega) hj
      · intro h; exact ⟨le_top, fun i j hi _ hj => h i j hi hj⟩
    · rw [outsAt0_B V c ⟨n + 1, hn⟩ h0, stored_later]
      show e ≤ k0_pay2 (F := Ideal) (blk1 V c ⟨n + 1, hn⟩) (blk2 V c ⟨n + 1, hn⟩) (outsAt0 V c n (Nat.lt_of_succ_lt hn)) (ix2 b r) ↔ _
      rw [Tile.pay2_first, le_min_iff, le_iInf_iff, tile_le_iff, ih (Nat.lt_of_succ_lt hn) b r e]
      have d1 : n / 8 = (n + 1) / 8 := by omega
      have d2 : n % 8 + 1 = (n + 1) % 8 := by omega
      constructor
      · rintro ⟨ha, hb⟩ i j hi hj
        by_cases hlt : j.val < 1024 * ((n + 1) % 8)
        · exact ha i j (by rw [d1]; exact hi) (by rw [d2]; exact hlt)
        · exact hb i j hi (by show 1024 * ((n + 1) % 8) ≤ j.val; omega) hj
      · intro h
        exact ⟨fun i j hi hj => h i j (by rw [← d1]; exact hi) (by rw [d2] at hj; omega),
          fun i j hi _ hj => h i j hi hj⟩

/-! ## The result array -/

/-- An index of the result array is in point `t`'s output block iff each coordinate is in the block's range. -/
theorem mem_blk (t : Fin cfg0.N) (i : S2x8192.Idx) :
    i ∈ ((cfg0.win 2).blk t).view.set ↔ ∀ a : Fin 2, win0_2.index t a * S2x1024.size a ≤ (i a).val ∧ (i a).val < win0_2.index t a * S2x1024.size a + S2x1024.size a := by
  show i ∈ ((View.whole main_v0).slice (win0_2.rect t)).set ↔ _
  rw [View.set_slice_whole, Rect.mem_set_unit]
  exact Iff.rfl

/-- What a write-back writes: the output block's rows at the distances of their points to the WHOLE second cloud. -/
theorem flushed_eq (c : Dev nD) (t : Fin cfg0.N) (hf : (cfg0.win 2).flush t = true) :
    (dat0 V c).flushed 2 t = ((cfg0.win 2).blk t).view.read (Elt Ideal) (dist1 (cloud1 V c) (cloud2 V c)) := by
  have hN : t.val < 64 := lt_of_lt_of_eq t.isLt (show cfg0.N = 64 from N_0)
  have h7 : t.val % 8 = 7 := (flush0_2 t).mp hf
  show (cfg0.win 2).cut (grid0.coords t) ((dat0 V c).after 2 t) = _
  rw [after0_2]
  funext y
  obtain ⟨b, r, rfl⟩ : ∃ (b : Fin 2) (r : Fin 1024), y = ix2 b r := ⟨y 0, y 1, eq_ix2 y⟩
  have hi : 1024 * (t.val / 8) + r.val < 8192 := by have := r.isLt; omega
  have hemb : ((cfg0.win 2).blk t).view.emb (ix2 b r) = ix2 b (⟨1024 * (t.val / 8) + r.val, hi⟩ : Fin 8192) := by
    funext a
    apply Fin.ext
    obtain ⟨-, -, -, -, -, -, e0, e1⟩ := idx_facts t
    match a with
    | ⟨0, _⟩ => show win0_2.index t (0 : Fin 2) * 2 + 1 * b.val = b.val; omega
    | ⟨1, _⟩ => show win0_2.index t (1 : Fin 2) * 1024 + 1 * r.val = 1024 * (t.val / 8) + r.val; omega
  show outsAt0 V c t.val t.isLt (ix2 b r) = dist1 (cloud1 V c) (cloud2 V c) (((cfg0.win 2).blk t).view.emb (ix2 b r))
  rw [hemb, dist1_ix2]
  refine eq_of_forall_le_iff fun e => ?_
  rw [carried_le_iff, le_iInf_iff]
  constructor
  · intro h j; exact h _ j rfl (by have := j.isLt; omega)
  · intro h i j hi' _
    obtain rfl : i = ⟨1024 * (t.val / 8) + r.val, hi⟩ := Fin.ext hi'
    exact h j

/-- THE RESULT ARRAY of the first kernel: each point of the first cloud at its distance to the second cloud. -/
theorem final (c : Dev nD) : (dat0 V c).arrAt 2 cfg0.N = dist1 (cloud1 V c) (cloud2 V c) :=
  (dat0 V c).arrAt_eq_of_cover 2 (dist1 (cloud1 V c) (cloud2 V c)) (flushed_eq V c) fun i => by
    have hN : cfg0.N = 64 := N_0
    have hi0 : (i 0).val < 2 := (i 0).isLt
    have hi1 : (i 1).val < 8192 := (i 1).isLt
    have ht : 8 * ((i 1).val / 1024) + 7 < cfg0.N := by omega
    refine ⟨⟨8 * ((i 1).val / 1024) + 7, ht⟩, (flush0_2 _).mpr (by show (8 * ((i 1).val / 1024) + 7) % 8 = 7; omega), ?_⟩
    rw [mem_blk]
    obtain ⟨-, -, -, -, -, -, e0, e1⟩ := idx_facts ⟨8 * ((i 1).val / 1024) + 7, ht⟩
    intro a
    match a with
    | ⟨0, _⟩ =>
      show win0_2.index ⟨8 * ((i 1).val / 1024) + 7, ht⟩ (0 : Fin 2) * 2 ≤ (i 0).val ∧ (i 0).val < win0_2.index ⟨8 * ((i 1).val / 1024) + 7, ht⟩ (0 : Fin 2) * 2 + 2
      omega
    | ⟨1, _⟩ =>
      show win0_2.index ⟨8 * ((i 1).val / 1024) + 7, ht⟩ (1 : Fin 2) * 1024 ≤ (i 1).val ∧ (i 1).val < win0_2.index ⟨8 * ((i 1).val / 1024) + 7, ht⟩ (1 : Fin 2) * 1024 + 1024
      have e1' : win0_2.index ⟨8 * ((i 1).val / 1024) + 7, ht⟩ (1 : Fin 2) = (8 * ((i 1).val / 1024) + 7) / 8 := e1
      omega

end Cert.Chamfer.First

end
-- ==== Proof.Region1.lean ====
/-
  The second kernel: the distance from each point of the second cloud to the first cloud.

  The same table of pairwise squared distances, walked the other way. The grid runs over pairs (block of 1024 points
  of the second cloud, block of 1024 points of the first), the first cloud's block moving fastest: point `t` of the
  grid holds block `t / 8` of the second cloud and block `t % 8` of the first. The output block belongs to the second
  cloud's block and is carried across the eight inner steps: reset to `+∞` at the first, folded at every step with
  the nearest squared distance to the first cloud's current block (the minimum now runs down the table's columns),
  written back after the last. After inner step `s` the entry of point `j` is the infimum of `pd` over the first
  `1024 · (s + 1)` points of the first cloud, carried through the induction as the set of its lower bounds. After the
  last step the range is the whole first cloud, and the eight write-backs tile the result array.
-/
import proofs.«121679_j4733053960750_1_alg».proof.Proof.Gen.KernelIdeal.Frame
import proofs.«121679_j4733053960750_1_alg».proof.Proof.TileMin
import proofs.«121679_j4733053960750_1_alg».proof.Proof.Spec
import Idealize.ShloMosaic.Lib.Pipeline.Value
import Idealize.ShloMosaic.Lib.Tactic

noncomputable section

namespace Cert.Chamfer.Second

open Cert.KernelIdeal Cert.KernelIdeal.Gen Idealize.ShloMosaic Idealize.ShloMosaic.TcCoe Idealize.SL.Sem
open Idealize.ShloMosaic.ValueIdx Cert.Chamfer
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one step leaves in the output block -/

section Pieces
variable {F : FTy → Type} [FloatOps F]

/-- A later inner step: the block held `xo`, and the one covering store replaces it by the fold of the two input
    blocks into `xo`. -/
theorem stored_later (c : Dev nD) (i : grid1.Coords) (a2 : Memref sig .tc .vmem S2x1024x3 .f32) (h2 : a2.IsWhole)
    (a3 : Memref sig .tc .vmem S2x1024x3 .f32) (h3 : a3.IsWhole) (a4 : Memref sig .tc .vmem S2x1024 .f32) (h4 : a4.IsWhole)
    (hc : ¬cond1_0 i) (x0 x1 : Vec F S2x1024x3 .f32) (xo : Vec F S2x1024 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz2]
  simp only [View.readAt_eq_ld, h2.read_unread, h3.read_unread, h4.read_unread, View.ld_unit_zero (S := S2x1024x3) hz3,
    View.ld_unit_zero (S := S2x1024) hz2]

/-- The first inner step: the block is reset to `+∞`, read back, and the fold of the two input blocks into the reset
    is stored over it. -/
theorem stored_first (c : Dev nD) (i : grid1.Coords) (a2 : Memref sig .tc .vmem S2x1024x3 .f32) (h2 : a2.IsWhole)
    (a3 : Memref sig .tc .vmem S2x1024x3 .f32) (h3 : a3.IsWhole) (a4 : Memref sig .tc .vmem S2x1024 .f32) (h4 : a4.IsWhole)
    (hc : cond1_0 i) (x0 x1 : Vec F S2x1024x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S2x1024) hz2]
  simp only [View.readAt_eq_ld, h2.read_unread, h3.read_unread, View.ld_unit_zero (S := S2x1024x3) hz3,
    View.readCov_unit_zero (S := S2x1024) _ hz2]

end Pieces

/-! ## The blocks of the two clouds at a grid point -/

variable (V : (c : Dev nD) → (b : Ref sig .tc) → Buf (Elt Ideal) ((c : Thread nD τ).loc b))

/-- The two clouds as the region finds them, and their blocks at grid point `t`. -/
abbrev cloud1 (c : Dev nD) : FVec Ideal S2x8192x3 .f32 := V c main_arg0
abbrev cloud2 (c : Dev nD) : FVec Ideal S2x8192x3 .f32 := V c main_arg1
abbrev blk1 (c : Dev nD) (t : Fin cfg1.N) : FVec Ideal S2x1024x3 .f32 := iblk1 V c 0 t
abbrev blk2 (c : Dev nD) (t : Fin cfg1.N) : FVec Ideal S2x1024x3 .f32 := iblk1 V c 1 t

/-- Which blocks grid point `t` holds: block `t % 8` of the first cloud, block `t / 8` of the second and of the output. -/
theorem idx_facts : ∀ t : Fin cfg1.N,
    win1_0.index t (0 : Fin 3) = 0 ∧ win1_0.index t (1 : Fin 3) = t.val % 8 ∧ win1_0.index t (2 : Fin 3) = 0
    ∧ win1_1.index t (0 : Fin 3) = 0 ∧ win1_1.index t (1 : Fin 3) = t.val / 8 ∧ win1_1.index t (2 : Fin 3) = 0
    ∧ win1_2.index t (0 : Fin 2) = 0 ∧ win1_2.index t (1 : Fin 2) = t.val / 8 :=
  (by decide +kernel : ∀ t : Fin grid1.N, _)

/-- Row `r` of the first cloud's block at `t` is point `1024 · (t % 8) + r` of the cloud. -/
theorem blk1_apply (c : Dev nD) (t : Fin cfg1.N) (b : Fin 2) (r : Fin 1024) (k : Fin 3) (i : Fin 8192)
    (hi : i.val = 1024 * (t.val % 8) + r.val) : blk1 V c t (ix3 b r k) = cloud1 V c (ix3 b i k) := by
  show iblk1 V c 0 t (ix3 b r k) = V c main_arg0 (ix3 b i k)
  unfold iblk1
  rw [View.read_apply]
  show V c main_arg0 _ = V c main_arg0 _
  congr 1
  funext a
  apply Fin.ext
  obtain ⟨e0, e1, e2, -⟩ := idx_facts t
  match a with
  | ⟨0, _⟩ => show win1_0.index t (0 : Fin 3) * 2 + 1 * b.val = b.val; omega
  | ⟨1, _⟩ => show win1_0.index t (1 : Fin 3) * 1024 + 1 * r.val = i.val; omega
  | ⟨2, _⟩ => show win1_0.index t (2 : Fin 3) * 3 + 1 * k.val = k.val; omega

/-- Row `q` of the second cloud's block at `t` is point `1024 · (t / 8) + q` of the cloud. -/
theorem blk2_apply (c : Dev nD) (t : Fin cfg1.N) (b : Fin 2) (q : Fin 1024) (k : Fin 3) (j : Fin 8192)
    (hj : j.val = 1024 * (t.val / 8) + q.val) : blk2 V c t (ix3 b q k) = cloud2 V c (ix3 b j k) := by
  show iblk1 V c 1 t (ix3 b q k) = V c main_arg1 (ix3 b j k)
  unfold iblk1
  rw [View.read_apply]
  show V c main_arg1 _ = V c main_arg1 _
  congr 1
  funext a
  apply Fin.ext
  obtain ⟨-, -, -, e0, e1, e2, -⟩ := idx_facts t
  match a with
  | ⟨0, _⟩ => show win1_1.index t (0 : Fin 3) * 2 + 1 * b.val = b.val; omega
  | ⟨1, _⟩ => show win1_1.index t (1 : Fin 3) * 1024 + 1 * q.val = j.val; omega
  | ⟨2, _⟩ => show win1_1.index t (2 : Fin 3) * 3 + 1 * k.val = k.val; omega

/-! ## One step, and the carried block after every step -/

/-- A lower bound of every distance down a column of the grid point's pair of blocks is a lower bound of `pd` over
    the corresponding ranges of the two clouds, and conversely. -/
theorem tile_le_iff (c : Dev nD) (t : Fin cfg1.N) (b : Fin 2) (q : Fin 1024) (e : EReal) :
    (∀ r : Fin 1024, e ≤ pd (blk1 V c t) (blk2 V c t) b r q) ↔
      ∀ i j : Fin 8192, j.val = 1024 * (t.val / 8) + q.val → 1024 * (t.val % 8) ≤ i.val → i.val < 1024 * (t.val % 8 + 1) →
        e ≤ pd (cloud1 V c) (cloud2 V c) b i j := by
  have hN : t.val < 64 := lt_of_lt_of_eq t.isLt (show cfg1.N = 64 from N_1)
  constructor
  · intro h i j hj hi1 hi2
    have hr : i.val - 1024 * (t.val % 8) < 1024 := by omega
    have := h ⟨i.val - 1024 * (t.val % 8), hr⟩
    rwa [pd_congr (blk1 V c t) (blk2 V c t) (cloud1 V c) (cloud2 V c) b ⟨i.val - 1024 * (t.val % 8), hr⟩ q i j
      (fun k => blk1_apply V c t b ⟨i.val - 1024 * (t.val % 8), hr⟩ k i (by show i.val = 1024 * (t.val % 8) + (i.val - 1024 * (t.val % 8)); omega))
      (fun k => blk2_apply V c t b q k j hj)] at this
  · intro h r
    have hi : 1024 * (t.val % 8) + r.val < 8192 := by have := r.isLt; omega
    have hj : 1024 * (t.val / 8) + q.val < 8192 := by have := q.isLt; omega
    rw [pd_congr (blk1 V c t) (blk2 V c t) (cloud1 V c) (cloud2 V c) b r q ⟨1024 * (t.val % 8) + r.val, hi⟩ ⟨1024 * (t.val / 8) + q.val, hj⟩
      (fun k => blk1_apply V c t b r k _ rfl) (fun k => blk2_apply V c t b q k _ rfl)]
    exact h _ _ rfl (by show 1024 * (t.val % 8) ≤ 1024 * (t.val % 8) + r.val; omega)
      (by show 1024 * (t.val % 8) + r.val < 1024 * (t.val % 8 + 1); have := r.isLt; omega)

/-- THE CARRIED BLOCK. After grid point `n` the entry of column `q` is bounded below by exactly the lower bounds of the
    distances from point `1024 · (n / 8) + q` of the second cloud to the first `1024 · (n % 8 + 1)` points of the first. -/
theorem carried_le_iff (c : Dev nD) : ∀ (n : ℕ) (hn : n < cfg1.N) (b : Fin 2) (q : Fin 1024) (e : EReal),
    e ≤ outsAt1 V c n hn (ix2 b q) ↔
      ∀ i j : Fin 8192, j.val = 1024 * (n / 8) + q.val → i.val < 1024 * (n % 8 + 1) → e ≤ pd (cloud1 V c) (cloud2 V c) b i j := by
  intro n
  induction n with
  | zero =>
    intro hn b q e
    rw [outsAt1_A V c ⟨0, hn⟩ rfl, stored_first]
    show e ≤ k1_pay2 (F := Ideal) (blk1 V c ⟨0, hn⟩) (blk2 V c ⟨0, hn⟩) (k1_pay1 (F := Ideal)) (ix2 b q) ↔ _
    rw [Tile.pay2_second, le_min_iff, Tile.pay1_second, le_iInf_iff, tile_le_iff]
    constructor
    · intro h i j hj hi; exact h.2 i j hj (by show 1024 * (0 % 8) ≤ i.val; omega) hi
    · intro h; exact ⟨le_top, fun i j hj _ hi => h i j hj hi⟩
  | succ n ih =>
    intro hn b q e
    have hN : cfg1.N = 64 := N_1
    by_cases h0 : (n + 1) % 8 = 0
    · rw [outsAt1_A V c ⟨n + 1, hn⟩ h0, stored_first]
      show e ≤ k1_pay2 (F := Ideal) (blk1 V c ⟨n + 1, hn⟩) (blk2 V c ⟨n + 1, hn⟩) (k1_pay1 (F := Ideal)) (ix2 b q) ↔ _
      rw [Tile.pay2_second, le_min_iff, Tile.pay1_second, le_iInf_iff, tile_le_iff]
      constructor
      · intro h i j hj hi; exact h.2 i j hj (by show 1024 * ((n + 1) % 8) ≤ i.val; omega) hi
      · intro h; exact ⟨le_top, fun i j hj _ hi => h i j hj hi⟩
    · rw [outsAt1_B V c ⟨n + 1, hn⟩ h0, stored_later]
      show e ≤ k1_pay2 (F := Ideal) (blk1 V c ⟨n + 1, hn⟩) (blk2 V c ⟨n + 1, hn⟩) (outsAt1 V c n (Nat.lt_of_succ_lt hn)) (ix2 b q) ↔ _
      rw [Tile.pay2_second, le_min_iff, le_iInf_iff, tile_le_iff, ih (Nat.lt_of_succ_lt hn) b q e]
      have d1 : n / 8 = (n + 1) / 8 := by omega
      have d2 : n % 8 + 1 = (n + 1) % 8 := by omega
      constructor
      · rintro ⟨ha, hb⟩ i j hj hi
        by_cases hlt : i.val < 1024 * ((n + 1) % 8)
        · exact ha i j (by rw [d1]; exact hj) (by rw [d2]; exact hlt)
        · exact hb i j hj (by show 1024 * ((n + 1) % 8) ≤ i.val; omega) hi
      · intro h
        exact ⟨fun i j hj hi => h i j (by rw [← d1]; exact hj) (by rw [d2] at hi; omega),
          fun i j hj _ hi => h i j hj hi⟩

/-! ## The result array -/

/-- An index of the result array is in point `t`'s output block iff each coordinate is in the block's range. -/
theorem mem_blk (t : Fin cfg1.N) (i : S2x8192.Idx) :
    i ∈ ((cfg1.win 2).blk t).view.set ↔ ∀ a : Fin 2, win1_2.index t a * S2x1024.size a ≤ (i a).val ∧ (i a).val < win1_2.index t a * S2x1024.size a + S2x1024.size a := by
  show i ∈ ((View.whole main_v1).slice (win1_2.rect t)).set ↔ _
  rw [View.set_slice_whole, Rect.mem_set_unit]
  exact Iff.rfl

/-- What a write-back writes: the output block's entries at the distances of their points to the WHOLE first cloud. -/
theorem flushed_eq (c : Dev nD) (t : Fin cfg1.N) (hf : (cfg1.win 2).flush t = true) :
    (dat1 V c).flushed 2 t = ((cfg1.win 2).blk t).view.read (Elt Ideal) (dist2 (cloud1 V c) (cloud2 V c)) := by
  have hN : t.val < 64 := lt_of_lt_of_eq t.isLt (show cfg1.N = 64 from N_1)
  have h7 : t.val % 8 = 7 := (flush1_2 t).mp hf
  show (cfg1.win 2).cut (grid1.coords t) ((dat1 V c).after 2 t) = _
  rw [after1_2]
  funext y
  obtain ⟨b, q, rfl⟩ : ∃ (b : Fin 2) (q : Fin 1024), y = ix2 b q := ⟨y 0, y 1, eq_ix2 y⟩
  have hj : 1024 * (t.val / 8) + q.val < 8192 := by have := q.isLt; omega
  have hemb : ((cfg1.win 2).blk t).view.emb (ix2 b q) = ix2 b (⟨1024 * (t.val / 8) + q.val, hj⟩ : Fin 8192) := by
    funext a
    apply Fin.ext
    obtain ⟨-, -, -, -, -, -, e0, e1⟩ := idx_facts t
    match a with
    | ⟨0, _⟩ => show win1_2.index t (0 : Fin 2) * 2 + 1 * b.val = b.val; omega
    | ⟨1, _⟩ => show win1_2.index t (1 : Fin 2) * 1024 + 1 * q.val = 1024 * (t.val / 8) + q.val; omega
  show outsAt1 V c t.val t.isLt (ix2 b q) = dist2 (cloud1 V c) (cloud2 V c) (((cfg1.win 2).blk t).view.emb (ix2 b q))
  rw [hemb, dist2_ix2]
  refine eq_of_forall_le_iff fun e => ?_
  rw [carried_le_iff, le_iInf_iff]
  constructor
  · intro h i; exact h i _ rfl (by have := i.isLt; omega)
  · intro h i j hj' _
    obtain rfl : j = ⟨1024 * (t.val / 8) + q.val, hj⟩ := Fin.ext hj'
    exact h i

/-- THE RESULT ARRAY of the second kernel: each point of the second cloud at its distance to the first cloud. -/
theorem final (c : Dev nD) : (dat1 V c).arrAt 2 cfg1.N = dist2 (cloud1 V c) (cloud2 V c) :=
  (dat1 V c).arrAt_eq_of_cover 2 (dist2 (cloud1 V c) (cloud2 V c)) (flushed_eq V c) fun i => by
    have hN : cfg1.N = 64 := N_1
    have hi0 : (i 0).val < 2 := (i 0).isLt
    have hi1 : (i 1).val < 8192 := (i 1).isLt
    have ht : 8 * ((i 1).val / 1024) + 7 < cfg1.N := by omega
    refine ⟨⟨8 * ((i 1).val / 1024) + 7, ht⟩, (flush1_2 _).mpr (by show (8 * ((i 1).val / 1024) + 7) % 8 = 7; omega), ?_⟩
    rw [mem_blk]
    obtain ⟨-, -, -, -, -, -, e0, e1⟩ := idx_facts ⟨8 * ((i 1).val / 1024) + 7, ht⟩
    intro a
    match a with
    | ⟨0, _⟩ =>
      show win1_2.index ⟨8 * ((i 1).val / 1024) + 7, ht⟩ (0 : Fin 2) * 2 ≤ (i 0).val ∧ (i 0).val < win1_2.index ⟨8 * ((i 1).val / 1024) + 7, ht⟩ (0 : Fin 2) * 2 + 2
      omega
    | ⟨1, _⟩ =>
      show win1_2.index ⟨8 * ((i 1).val / 1024) + 7, ht⟩ (1 : Fin 2) * 1024 ≤ (i 1).val ∧ (i 1).val < win1_2.index ⟨8 * ((i 1).val / 1024) + 7, ht⟩ (1 : Fin 2) * 1024 + 1024
      have e1' : win1_2.index ⟨8 * ((i 1).val / 1024) + 7, ht⟩ (1 : Fin 2) = (8 * ((i 1).val / 1024) + 7) / 8 := e1
      omega

end Cert.Chamfer.Second

end
-- ==== Proof.Means.lean ====
/-
  The last step of both programs: the mean of each distance array, and their sum.

  Each array of 2 · 8192 distances is summed from a zero start, the sum divided by 16384, and the two quotients are
  added. Both programs do exactly this to their two arrays, with the same words, so the step is named once and never
  opened: the certificate only needs that equal arrays go in. The two shape facts the operations take are arguments,
  so that either program's own witnesses can be supplied.
-/
import Idealize.ShloMosaic.PureOps.Ideal
import Idealize.ShloMosaic.PureOps.Vector

noncomputable section

namespace Cert.Chamfer

open Idealize.ShloMosaic

/-- The sum of the two means. -/
def means (a b : FVec Ideal (⟨2, ![2, 8192]⟩ : Shape) .f32)
    (h : (⟨2, ![2, 8192]⟩ : Shape).ReducesTo [0, 1] (⟨0, ![]⟩ : Shape)) (hu : 0 < (⟨0, ![]⟩ : Shape).numel) :
    FVec Ideal (⟨0, ![]⟩ : Shape) .f32 :=
  addf
    (Host.divf (Host.reduceAdd (F := Ideal) a (constant (F := Ideal) (⟨0, ![]⟩ : Shape) .f32 0x00000000#32) h hu)
      (constant (F := Ideal) (⟨0, ![]⟩ : Shape) .f32 0x46800000#32))
    (Host.divf (Host.reduceAdd (F := Ideal) b (constant (F := Ideal) (⟨0, ![]⟩ : Shape) .f32 0x00000000#32) h hu)
      (constant (F := Ideal) (⟨0, ![]⟩ : Shape) .f32 0x46800000#32))

end Cert.Chamfer

end
-- ==== Proof.KernelValue.lean ====
/-
  The kernel program's result.

  @main runs the first kernel, then the second, then takes the two means and adds them. The first kernel leaves in
  its result array the distance of every point of the first cloud to the second cloud; the second kernel finds the
  two clouds as launched (the first kernel wrote neither) and leaves the distance of every point of the second
  cloud to the first; no later operation writes either array. So the program's result is the sum of the two means of
  those two arrays of distances, a function of the two clouds as launched.
-/
import proofs.«121679_j4733053960750_1_alg».proof.Proof.Gen.KernelIdeal.Frame
import proofs.«121679_j4733053960750_1_alg».proof.Proof.Region0
import proofs.«121679_j4733053960750_1_alg».proof.Proof.Region1
import proofs.«121679_j4733053960750_1_alg».proof.Proof.KernelRun
import proofs.«121679_j4733053960750_1_alg».proof.Proof.Spec
import proofs.«121679_j4733053960750_1_alg».proof.Proof.Means
import Idealize.ShloMosaic.Lib.StableHlo.Run

noncomputable section

namespace Cert.Chamfer.Whole

open Cert.KernelIdeal Cert.KernelIdeal.Gen Idealize.ShloMosaic Idealize.ShloMosaic.TcCoe Idealize.SL.Sem Cert.Chamfer
open Idealize.ShloMosaic.StableHlo

variable (m : (ℓ : Loc nD τ sig) → Buf (Elt Ideal) ℓ) (ρ : Dev nD → PrngReg)

/-- The result buffer after the last stretch of host operations: the two means of the two result arrays, added. -/
theorem tail_eq (c : Dev nD) :
    W3 m ρ c (Proc.devRef .tc main_v6)
      = means (W2 m ρ c (Proc.devRef .tc main_v0)) (W2 m ρ c (Proc.devRef .tc main_v1)) reducesTo_S2x8192_S_d0_1 h_S_ := by
  show StableHlo.after hostOps2 (W2 m ρ c) (Proc.devRef .tc main_v6) = _
  after_results
  rfl

/-- The second kernel finds the first cloud as launched. -/
theorem entry_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
/-- The second kernel finds the second cloud as launched. -/
theorem entry_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- The first result array, untouched by the second kernel, holds the distances to the second cloud. -/
theorem first_array (c : Dev nD) :
    W2 m ρ c (Proc.devRef .tc main_v0) = dist1 (m ((c : Thread nD τ).loc main_arg0)) (m ((c : Thread nD τ).loc main_arg1)) :=
  calc W2 m ρ c (Proc.devRef .tc main_v0)
    _ = W1 m ρ c (Proc.devRef .tc main_v0) := W2_of_ne m ρ c main_v0 (by decide : ∀ w : Fin 3, Pipeline.arrRef spec1 w ≠ main_v0)
    _ = (dat0 (V0 m ρ) c).arrAt 2 cfg0.N := W1_arr m ρ c 2
    _ = dist1 (V0 m ρ c main_arg0) (V0 m ρ c main_arg1) := First.final (V0 m ρ) c
    _ = _ := rfl

/-- The second result array holds the distances to the first cloud. -/
theorem second_array (c : Dev nD) :
    W2 m ρ c (Proc.devRef .tc main_v1) = dist2 (m ((c : Thread nD τ).loc main_arg0)) (m ((c : Thread nD τ).loc main_arg1)) :=
  calc W2 m ρ c (Proc.devRef .tc main_v1)
    _ = (dat1 (V1 m ρ) c).arrAt 2 cfg1.N := W2_arr m ρ c 2
    _ = dist2 (V1 m ρ c main_arg0) (V1 m ρ c main_arg1) := Second.final (V1 m ρ) c
    _ = _ := by rw [entry_arg0, entry_arg1]

/-- The run with its result as a function of the two clouds as launched. -/
theorem run : θ_run defs (onTc (τ := τ) (main (F := Ideal))) ⟨m, fun _ => 0, ρ⟩ (fun r => ∀ c : Dev nD,
      r.2.mem ((c.tc : Thread nD τ).loc main_v6)
        = means (dist1 (m ((c : Thread nD τ).loc main_arg0)) (m ((c : Thread nD τ).loc main_arg1)))
            (dist2 (m ((c : Thread nD τ).loc main_arg0)) (m ((c : Thread nD τ).loc main_arg1))) reducesTo_S2x8192_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans ((tail_eq m ρ c).trans (by rw [first_array, second_array])), (h c).2⟩)
    (Cert.KernelIdeal.RunNamed.run_named m ρ)

end Cert.Chamfer.Whole

end
-- ==== Proof.RefStages.lean ====
/-
  The reference, stage by stage, against the specification.

  The reference forms the whole table of pairwise squared distances of the two clouds — the squared norms as sums of
  squares from a zero start, spread over the table, minus twice the batched inner products — and reduces it twice with
  a minimum from `+∞`: along the second cloud's points for each point of the first (`dist1`), along the first cloud's
  points for each point of the second (`dist2`). Read at an index, the table is `pd` (the zero start of a sum is the
  real zero and disappears), and a minimum from the top over a whole axis is the infimum over it. What follows the two
  reductions is the shared last step, the two means added, applied to those two arrays.
-/
import proofs.«121679_j4733053960750_1_alg».proof.Proof.Gen.ReferenceIdeal.Read
import proofs.«121679_j4733053960750_1_alg».proof.Proof.Spec
import proofs.«121679_j4733053960750_1_alg».proof.Proof.Means
import Idealize.ShloMosaic.PureOps.Reduce

noncomputable section

namespace Cert.Chamfer.Ref

open Cert.ReferenceIdeal Cert.ReferenceIdeal.Gen Cert.ReferenceIdeal.Read
open Idealize.ShloMosaic Idealize.ShloMosaic.ValueIdx Cert.Chamfer

variable (x0 x1 : (⟨S2x8192x3, .f32⟩ : BufTy).Contents (Elt Ideal))

/-- The reference's distance table at (b, i, j) is the expanded squared distance of point `i` of the first cloud and
    point `j` of the second. -/
theorem table_apply (b : Fin 2) (i j : Fin 8192) :
    val_main_v12 (F := Ideal) x0 x1 (ix3 b i j) = pd x0 x1 b i j := by
  have e1 : ∀ k : Fin 3, idx_main_v1 (idx_main_v5 (idx_main_v7 (ix3 b i j))) k = ix3 b i k := fun k =>
    funext fun a => Fin.ext (by match a with | ⟨0, _⟩ => rfl | ⟨1, _⟩ => rfl | ⟨2, _⟩ => rfl)
  have e3 : ∀ k : Fin 3, idx_main_v3 (idx_main_v6 (idx_main_v8 (ix3 b i j))) k = ix3 b j k := fun k =>
    funext fun a => Fin.ext (by match a with | ⟨0, _⟩ => rfl | ⟨1, _⟩ => rfl | ⟨2, _⟩ => rfl)
  have el : ∀ k : Fin 3, lidx_main_v4 (ix3 b i j) k = ix3 b i k := fun k =>
    funext fun a => Fin.ext (by match a with | ⟨0, _⟩ => rfl | ⟨1, _⟩ => rfl | ⟨2, _⟩ => rfl)
  have er : ∀ k : Fin 3, ridx_main_v4 (ix3 b i j) k = ix3 b j k := fun k =>
    funext fun a => Fin.ext (by match a with | ⟨0, _⟩ => rfl | ⟨1, _⟩ => rfl | ⟨2, _⟩ => rfl)
  rw [val_main_v12_apply, val_main_v9_apply, val_main_v11_apply, val_main_v7_apply, val_main_v8_apply, val_main_v5_apply,
    val_main_v6_apply, val_main_v1_apply, val_main_v3_apply, val_main_v10_apply, val_main_v4_apply]
  simp only [e1, e3, el, er, val_main_v0_apply, val_main_v2_apply, val_main_cst_apply, val_main_cst_0_apply,
    val_main_cst_1_apply, Ideal.subf_def, Ideal.addf_def, Ideal.mulf_def, Ideal.ofBits_def, Ideal.ofBits_zero_f32, zero_add]
  rfl

/-- The first reduction: for each point of the first cloud, the infimum over the second cloud. -/
theorem near_second : val_main_v13 (F := Ideal) x0 x1 = dist1 x0 x1 := by
  funext p
  obtain ⟨b, i, rfl⟩ : ∃ (b : Fin 2) (i : Fin 8192), p = ix2 b i := ⟨p 0, p 1, eq_ix2 p⟩
  rw [dist1_ix2]
  unfold val_main_v13
  have h : S2x8192x8192.Reduces [2] S2x8192 := by decide
  rw [Host.reduce_eq_fold_single FloatOps.minimumf _ _ reducesTo_S2x8192x8192_S2x8192_d2 h h_S_]
  refine (fold_minimumf_inf _).trans (iInf_congr fun j => ?_)
  have e : h.lift (ix2 b i) j = ix3 b i j := funext fun a => Fin.ext (by
    match a with | ⟨0, _⟩ => rfl | ⟨1, _⟩ => rfl | ⟨2, _⟩ => rfl)
  exact (congrArg (val_main_v12 (F := Ideal) x0 x1) e).trans (table_apply x0 x1 b i j)

/-- The second reduction: for each point of the second cloud, the infimum over the first cloud. -/
theorem near_first : val_main_v14 (F := Ideal) x0 x1 = dist2 x0 x1 := by
  funext p
  obtain ⟨b, j, rfl⟩ : ∃ (b : Fin 2) (j : Fin 8192), p = ix2 b j := ⟨p 0, p 1, eq_ix2 p⟩
  rw [dist2_ix2]
  unfold val_main_v14
  have h : S2x8192x8192.Reduces [1] S2x8192 := by decide
  rw [Host.reduce_eq_fold_single FloatOps.minimumf _ _ reducesTo_S2x8192x8192_S2x8192_d1 h h_S_]
  refine (fold_minimumf_inf _).trans (iInf_congr fun i => ?_)
  have e : h.lift (ix2 b j) i = ix3 b i j := funext fun a => Fin.ext (by
    match a with | ⟨0, _⟩ => rfl | ⟨1, _⟩ => rfl | ⟨2, _⟩ => rfl)
  exact (congrArg (val_main_v12 (F := Ideal) x0 x1) e).trans (table_apply x0 x1 b i j)

/-- The reference's result: the two means of the two arrays of distances, added. -/
theorem result_eq : val_main_v19 (F := Ideal) x0 x1
    = means (dist1 x0 x1) (dist2 x0 x1) reducesTo_S2x8192_S_d0_1 h_S_ := by
  rw [← near_second, ← near_first]
  rfl

end Cert.Chamfer.Ref

end
-- ==== Proof.lean ====
/-
  Chamfer distance of two point clouds: the kernel program against its reference, over the extended reals.

  Both programs take two clouds of 2 × 8192 points of ℝ³ and return one number: the mean, over the points of the first
  cloud, of the squared distance to the nearest point of the second, plus the same mean with the clouds exchanged. The
  squared distance of two points is taken expanded, (|x|² + |y|²) − 2⟨x, y⟩, by both, with the same words and in the
  same order of operations; the reference forms the whole 8192 × 8192 table and reduces it twice with a minimum, the
  kernel program visits the table in 1024 × 1024 tiles, once row-wise and once column-wise, keeping a running minimum
  per point that starts from +∞. A running minimum over tiles that exhaust an axis is the minimum over the axis:
  minimum is associative, commutative and idempotent and +∞ is its identity, on the extended reals as on any linear
  order with a top, so no finiteness of the inputs is used. The inner products are plain sums of three products on both
  sides, and a sum of squares from a zero start is the sum.

  Proof/Spec.lean states the mathematics (`pd`, `dist1`, `dist2`), Proof/Means.lean the shared last step,
  Proof/TileMin.lean one grid point of either kernel, Proof/Region0.lean and Proof/Region1.lean the two result arrays,
  Proof/KernelValue.lean the kernel program's result, Proof/RefStages.lean the reference's. Here the claims are
  assembled: the three runs, the idealization (nothing was rewritten), and the equality of the two results.
-/
import proofs.«121679_j4733053960750_1_alg».proof.Defs
import proofs.«121679_j4733053960750_1_alg».proof.Proof.Gen.Kernel
import proofs.«121679_j4733053960750_1_alg».proof.Proof.Gen.Kernel.Frame
import proofs.«121679_j4733053960750_1_alg».proof.Proof.Gen.KernelIdeal
import proofs.«121679_j4733053960750_1_alg».proof.Proof.Gen.KernelIdeal.Frame
import proofs.«121679_j4733053960750_1_alg».proof.Proof.Gen.ReferenceIdeal
import proofs.«121679_j4733053960750_1_alg».proof.Proof.Gen.ReferenceIdeal.Run
import proofs.«121679_j4733053960750_1_alg».proof.Proof.Gen.ReferenceIdeal.Read
import proofs.«121679_j4733053960750_1_alg».proof.Proof.Gen.Pre_finite_inputs
import proofs.«121679_j4733053960750_1_alg».proof.Proof.KernelValue
import proofs.«121679_j4733053960750_1_alg».proof.Proof.RefStages

noncomputable section

namespace Cert.Proof

open Idealize.ShloMosaic Idealize.SL.Sem Cert.Chamfer

/-- The kernel program as printed runs and keeps its arguments. -/
theorem frame_k : Cert.frame_Kernel := fun m ρ _ => Cert.Kernel.Gen.frame m ρ
/-- So does its reading at the ideal values. -/
theorem frame_ki : Cert.frame_KernelIdeal := fun m ρ _ => Cert.KernelIdeal.Gen.frame m ρ
/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel program. -/
theorem preserves : Cert.preserves_Kernel_KernelIdeal := trivial

/-- From clouds that agree, both programs end at the two means, added, of `dist1` and `dist2` of the clouds. -/
theorem algebraic : Cert.algebraic_KernelIdeal_ReferenceIdeal := by
  intro m ρ m' ρ' _ hagree
  refine ⟨fun c => means
      (dist1 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (dist2 (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      Cert.KernelIdeal.Gen.reducesTo_S2x8192_S_d0_1 Cert.KernelIdeal.Gen.h_S_,
    Cert.Chamfer.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Chamfer.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
